-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S512x4096 : Shape := ⟨2, ![512, 4096]⟩
abbrev S32x512 : Shape := ⟨2, ![32, 512]⟩
abbrev S32x4096 : Shape := ⟨2, ![32, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : IVec S512x4096 32) (main_arg2 : IVec S32x512 32) (main_arg3 : FVec F S32x4096 .f32) (main_arg4 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S32x4096 .f32 := Host.absf main_arg3
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S512x4096 : Shape := ⟨2, ![512, 4096]⟩
abbrev S32x512 : Shape := ⟨2, ![32, 512]⟩
abbrev S32x4096 : Shape := ⟨2, ![32, 4096]⟩
abbrev S4096 : Shape := ⟨1, ![4096]⟩
abbrev S16384x4096 : Shape := ⟨2, ![16384, 4096]⟩
abbrev S4096x4096 : Shape := ⟨2, ![4096, 4096]⟩
abbrev S128x1024 : Shape := ⟨2, ![128, 1024]⟩
abbrev S8x128 : Shape := ⟨2, ![8, 128]⟩
abbrev S8x1024 : Shape := ⟨2, ![8, 1024]⟩
abbrev S1024x1024 : Shape := ⟨2, ![1024, 1024]⟩
abbrev S1x8x1 : Shape := ⟨3, ![1, 8, 1]⟩
abbrev S128x1x1024 : Shape := ⟨3, ![128, 1, 1024]⟩
abbrev S128x8x1024 : Shape := ⟨3, ![128, 8, 1024]⟩
abbrev S8x128x1024 : Shape := ⟨3, ![8, 128, 1024]⟩
abbrev S1x1x8 : Shape := ⟨3, ![1, 1, 8]⟩
abbrev S8x128x1 : Shape := ⟨3, ![8, 128, 1]⟩
abbrev S8x128x8 : Shape := ⟨3, ![8, 128, 8]⟩
abbrev S8x1x1024 : Shape := ⟨3, ![8, 1, 1024]⟩
abbrev S4096x1024 : Shape := ⟨2, ![4096, 1024]⟩
abbrev S1024 : Shape := ⟨1, ![1024]⟩
abbrev S512x1024 : Shape := ⟨2, ![512, 1024]⟩
abbrev S1x1024 : Shape := ⟨2, ![1, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x2048x4096, .f32⟩
  | .hbm, ⟨1, _⟩ => ⟨S512x4096, .i32⟩
  | .hbm, ⟨2, _⟩ => ⟨S32x512, .i32⟩
  | .hbm, ⟨3, _⟩ => ⟨S32x4096, .f32⟩
  | .hbm, ⟨4, _⟩ => ⟨S4096, .f32⟩
  | .hbm, ⟨5, _⟩ => ⟨S16384x4096, .f32⟩
  | .hbm, ⟨6, _⟩ => ⟨S4096x4096, .bf16⟩
  | .hbm, ⟨7, _⟩ => ⟨S16384x4096, .f32⟩
  | .hbm, ⟨8, _⟩ => ⟨S8x2048x4096, .f32⟩
  | .local _ .vmem, ⟨0, _⟩ => ⟨S128x1024, .i32⟩
  | .local _ .vmem, ⟨1, _⟩ => ⟨S128x1024, .i32⟩
  | .local _ .vmem, ⟨2, _⟩ => ⟨S8x128, .i32⟩
  | .local _ .vmem, ⟨3, _⟩ => ⟨S8x128, .i32⟩
  | .local _ .vmem, ⟨4, _⟩ => ⟨S8x1024, .f32⟩
  | .local _ .vmem, ⟨5, _⟩ => ⟨S8x1024, .f32⟩
  | .local _ .vmem, ⟨6, _⟩ => ⟨S1024x1024, .bf16⟩
  | .local _ .vmem, ⟨7, _⟩ => ⟨S1024x1024, .bf16⟩
  | .local _ .vmem, ⟨8, _⟩ => ⟨S512x4096, .f32⟩
  | .local _ .vmem, ⟨9, _⟩ => ⟨S512x4096, .f32⟩
  | .local _ .vmem, ⟨10, _⟩ => ⟨S4096x1024, .bf16⟩
  | .local _ .vmem, ⟨11, _⟩ => ⟨S4096x1024, .bf16⟩
  | .local _ .vmem, ⟨12, _⟩ => ⟨S1024, .f32⟩
  | .local _ .vmem, ⟨13, _⟩ => ⟨S1024, .f32⟩
  | .local _ .vmem, ⟨14, _⟩ => ⟨S512x1024, .f32⟩
  | .local _ .vmem, ⟨15, _⟩ => ⟨S512x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S8x2048x4096_S16384x4096 : S8x2048x4096.ShapeCasts S16384x4096
  iota_S1x8x1_d1_w32 : S1x8x1.Iotas .tc 32 [1]
  inb_S128x1024_S128x1024_0_0 : ∀ a, (![0, 0] : Fin 2 → Nat) a + S128x1024.size a ≤ S128x1024.size a
  h_S128x1024 : 0 < S128x1024.numel
  shapeCasts_S128x1024_S128x1x1024 : S128x1024.ShapeCasts S128x1x1024
  broadcasts_S128x1x1024_S128x8x1024 : S128x1x1024.Broadcasts S128x8x1024
  broadcasts_S1x8x1_S128x8x1024 : S1x8x1.Broadcasts S128x8x1024
  shapeCasts_S128x8x1024_S1024x1024 : S128x8x1024.ShapeCasts S1024x1024
  shapeCasts_S1024x1024_S8x128x1024 : S1024x1024.ShapeCasts S8x128x1024
  iota_S1x1x8_d2_w32 : S1x1x8.Iotas .tc 32 [2]
  inb_S8x128_S8x128_0_0 : ∀ a, (![0, 0] : Fin 2 → Nat) a + S8x128.size a ≤ S8x128.size a
  h_S8x128 : 0 < S8x128.numel
  shapeCasts_S8x128_S8x128x1 : S8x128.ShapeCasts S8x128x1
  broadcasts_S8x128x1_S8x128x8 : S8x128x1.Broadcasts S8x128x8
  broadcasts_S1x1x8_S8x128x8 : S1x1x8.Broadcasts S8x128x8
  shapeCasts_S8x128x8_S8x1024 : S8x128x8.ShapeCasts S8x1024
  shapeCasts_S8x1024_S8x1x1024 : S8x1024.ShapeCasts S8x1x1024
  inb_S8x1024_S8x1024_0_0 : ∀ a, (![0, 0] : Fin 2 → Nat) a + S8x1024.size a ≤ S8x1024.size a
  h_S8x1024 : 0 < S8x1024.numel
  broadcasts_S8x1x1024_S8x128x1024 : S8x1x1024.Broadcasts S8x128x1024
  shapeCasts_S8x128x1024_S1024x1024 : S8x128x1024.ShapeCasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S16384x4096_S8x2048x4096 : S16384x4096.ShapeCasts S8x2048x4096
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S512x4096.size a
  hwx0_0 : ∀ i : grid0.Coords, EltTy.bits .i32 = 32 ∨ (Rect.block (s := S512x4096) S128x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x512.size a
  hwx0_1 : ∀ i : grid0.Coords, EltTy.bits .i32 = 32 ∨ (Rect.block (s := S32x512) S8x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S32x4096.size a
  hwx0_2 : ∀ i : grid0.Coords, EltTy.bits .f32 = 32 ∨ (Rect.block (s := S32x4096) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S16384x4096.size a
  hwx1_0 : ∀ i : grid1.Coords, EltTy.bits .f32 = 32 ∨ (Rect.block (s := S16384x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x4096.size a
  hwx1_1 : ∀ i : grid1.Coords, EltTy.bits .bf16 = 32 ∨ (Rect.block (s := S4096x4096) S4096x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S4096.size a
  hwx1_2 : ∀ i : grid1.Coords, EltTy.bits .f32 = 32 ∨ (Rect.block (s := S4096) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S16384x4096.size a
  hwx1_3 : ∀ i : grid1.Coords, EltTy.bits .f32 = 32 ∨ (Rect.block (s := S16384x4096) S512x1024.size (cc1_transform_3 i) (hinb1_3 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg1) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4096x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x4096 : Shape := ⟨3, ![8, 2048, 4096]⟩
abbrev S512x4096 : Shape := ⟨2, ![512, 4096]⟩
abbrev S32x512 : Shape := ⟨2, ![32, 512]⟩
abbrev S32x4096 : Shape := ⟨2, ![32, 4096]⟩
abbrev S4096 : Shape := ⟨1, ![4096]⟩
abbrev S16384x4096 : Shape := ⟨2, ![16384, 4096]⟩
abbrev S8 : Shape := ⟨1, ![8]⟩
abbrev S_ : Shape := ⟨0, ![]⟩
abbrev S32x512x1 : Shape := ⟨3, ![32, 512, 1]⟩
abbrev S1x1x8 : Shape := ⟨3, ![1, 1, 8]⟩
abbrev S32x512x8 : Shape := ⟨3, ![32, 512, 8]⟩
abbrev S512x1x4096 : Shape := ⟨3, ![512, 1, 4096]⟩
abbrev S1x8x1 : Shape := ⟨3, ![1, 8, 1]⟩
abbrev S512x8x4096 : Shape := ⟨3, ![512, 8, 4096]⟩
abbrev S4096x4096 : Shape := ⟨2, ![4096, 4096]⟩
abbrev S32x128x4096 : Shape := ⟨3, ![32, 128, 4096]⟩
abbrev S1x4096 : Shape := ⟨2, ![1, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S512x4096, .i32⟩
  | .hbm, ⟨2, _⟩ => ⟨S32x512, .i32⟩
  | .hbm, ⟨3, _⟩ => ⟨S32x4096, .f32⟩
  | .hbm, ⟨4, _⟩ => ⟨S4096, .f32⟩
  | .hbm, ⟨5, _⟩ => ⟨S16384x4096, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S32x512x1, .i32⟩
  | .hbm, ⟨14, _⟩ => ⟨S1x1x8, .i32⟩
  | .hbm, ⟨15, _⟩ => ⟨S32x512x8, .i32⟩
  | .hbm, ⟨16, _⟩ => ⟨S32x512x8, .i32⟩
  | .hbm, ⟨17, _⟩ => ⟨S32x512x8, .i32⟩
  | .hbm, ⟨18, _⟩ => ⟨S_, .i32⟩
  | .hbm, ⟨19, _⟩ => ⟨S32x512x8, .i32⟩
  | .hbm, ⟨20, _⟩ => ⟨S32x512x8, .i32⟩
  | .hbm, ⟨21, _⟩ => ⟨S32x4096, .i32⟩
  | .hbm, ⟨22, _⟩ => ⟨S32x4096, .f32⟩
  | .hbm, ⟨23, _⟩ => ⟨S512x1x4096, .i32⟩
  | .hbm, ⟨24, _⟩ => ⟨S1x8x1, .i32⟩
  | .hbm, ⟨25, _⟩ => ⟨S512x8x4096, .i32⟩
  | .hbm, ⟨26, _⟩ => ⟨S512x8x4096, .i32⟩
  | .hbm, ⟨27, _⟩ => ⟨S512x8x4096, .i32⟩
  | .hbm, ⟨28, _⟩ => ⟨S_, .i32⟩
  | .hbm, ⟨29, _⟩ => ⟨S512x8x4096, .i32⟩
  | .hbm, ⟨30, _⟩ => ⟨S512x8x4096, .i32⟩
  | .hbm, ⟨31, _⟩ => ⟨S4096x4096, .i32⟩
  | .hbm, ⟨32, _⟩ => ⟨S4096x4096, .f32⟩
  | .hbm, ⟨33, _⟩ => ⟨S32x128x4096, .f32⟩
  | .hbm, ⟨34, _⟩ => ⟨S4096x4096, .f32⟩
  | .hbm, ⟨35, _⟩ => ⟨S32x128x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  shapeCasts_S8x2048x4096_S16384x4096 : S8x2048x4096.ShapeCasts S16384x4096
  bcast_S_S8 : S_.BroadcastsInDim S8 (![] : Fin 0 → Fin S8.rank)
  bcast_S32x512_S32x512x1_0_1 : S32x512.BroadcastsInDim S32x512x1 (![0, 1] : Fin 2 → Fin S32x512x1.rank)
  bcast_S8_S1x1x8_2 : S8.BroadcastsInDim S1x1x8 (![2] : Fin 1 → Fin S1x1x8.rank)
  bcast_S32x512x1_S32x512x8_0_1_2 : S32x512x1.BroadcastsInDim S32x512x8 (![0, 1, 2] : Fin 3 → Fin S32x512x8.rank)
  bcast_S1x1x8_S32x512x8_0_1_2 : S1x1x8.BroadcastsInDim S32x512x8 (![0, 1, 2] : Fin 3 → Fin S32x512x8.rank)
  bcast_S_S32x512x8 : S_.BroadcastsInDim S32x512x8 (![] : Fin 0 → Fin S32x512x8.rank)
  shapeCasts_S32x512x8_S32x4096 : S32x512x8.ShapeCasts S32x4096
  bcast_S512x4096_S512x1x4096_0_2 : S512x4096.BroadcastsInDim S512x1x4096 (![0, 2] : Fin 2 → Fin S512x1x4096.rank)
  bcast_S8_S1x8x1_1 : S8.BroadcastsInDim S1x8x1 (![1] : Fin 1 → Fin S1x8x1.rank)
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S4096x4096 : S512x8x4096.ShapeCasts S4096x4096
  bcast_S32x4096_S32x128x4096_0_2 : S32x4096.BroadcastsInDim S32x128x4096 (![0, 2] : Fin 2 → Fin S32x128x4096.rank)
  shapeCasts_S32x128x4096_S4096x4096 : S32x128x4096.ShapeCasts S4096x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  shapeCasts_S16384x4096_S8x2048x4096 : S16384x4096.ShapeCasts S8x2048x4096
  dot_S16384x4096_S4096x4096_S16384x4096_1_0_0_1_n_n_wf : DotDims.WF S16384x4096 S4096x4096 S16384x4096 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf

class Facts : Prop extends Facts₀ where

variable [Facts]
-- ==== Proof.Spec.lean ====
/-
  A linear layer whose weight matrix is stored as 4-bit integers, eight to a 32-bit word, with one
  scale and one zero point per group of 128 input features:

      out[r, n] = (sum over k < 4096 of x[r, k] * W[k, n]) + bias[n],
      W[k, n]   = scale[k / 128, n] * (nib(qweight[k / 8, n], k % 8) - nib(qzeros[k / 128, n / 8], n % 8)),

  where nib(w, s) is bits 4s .. 4s+3 of the word w: the arithmetic shift right by 4s, masked with 15
  (for s = 7 the shift brings sign bits in above bit 3, and the mask removes them).  Both factors of a
  product and the subtraction are the exact operations on extended reals; an integer enters as the real
  number it is.  Nothing here refers to a program.
-/
import Idealize.ShloMosaic.PureOps.Ideal
import Idealize.ShloMosaic.Lib.ValueIdx
import Idealize.ShloMosaic.Lib.KernelVsHost

noncomputable section

namespace Cert.Spec

open Idealize.ShloMosaic Idealize.ShloMosaic.ValueIdx

/-- The shift that brings nibble `s` of a word down to its four low bits. -/
def shamt (s : Nat) : BitVec 32 := BitVec.ofNat 32 (4 * s)

/-- Nibble `s` (`s < 8`) of a packed word, as a word between 0 and 15. -/
def nib (w : BitVec 32) (s : Nat) : BitVec 32 := IntOp.andi (IntOp.shrsi .vector w (shamt s)) 15#32

/-- `s * 4` computed in 32-bit words is that shift, for each of the eight nibbles. -/
theorem shamt_of_mul (s : Nat) (hs : s < 8) : IntOp.muli (BitVec.ofNat 32 s) 4#32 = shamt s := by
  have : ∀ t : Fin 8, IntOp.muli (BitVec.ofNat 32 t.val) 4#32 = shamt t.val := by decide
  exact this ⟨s, hs⟩

/-- `0 + 4 * s` computed in 32-bit words is the same shift. -/
theorem shamt_of_add_mul (s : Nat) (hs : s < 8) :
    IntOp.addi 0#32 (IntOp.muli 4#32 (BitVec.ofNat 32 s)) = shamt s := by
  have : ∀ t : Fin 8, IntOp.addi 0#32 (IntOp.muli 4#32 (BitVec.ofNat 32 t.val)) = shamt t.val := by decide
  exact this ⟨s, hs⟩

/-- The arithmetic shift of a 32-bit word does not depend on the unit that performs it. -/
theorem nib_of_host (w : BitVec 32) (s : Nat) :
    IntOp.andi (IntOp.shrsi .host w (shamt s)) 15#32 = nib w s := by
  unfold nib; rw [shrsi_unit .host .vector]

/-- Entry `(k, n)` of the dequantized weight matrix. -/
def deqAt (qw : (⟨2, ![512, 4096]⟩ : Shape).Idx → BitVec 32) (qz : (⟨2, ![32, 512]⟩ : Shape).Idx → BitVec 32)
    (sc : (⟨2, ![32, 4096]⟩ : Shape).Idx → EReal) (k n : Nat) (hk : k < 4096) (hn : n < 4096) : EReal :=
  sc (ix2 ⟨k / 128, by omega⟩ ⟨n, hn⟩)
    * (FloatOps.sitofp (F := Ideal) .f32 (nib (qw (ix2 ⟨k / 8, by omega⟩ ⟨n, hn⟩)) (k % 8))
        - FloatOps.sitofp (F := Ideal) .f32 (nib (qz (ix2 ⟨k / 128, by omega⟩ ⟨n / 8, by omega⟩)) (n % 8)))

/-- The dequantized weight matrix. -/
def deq (qw : (⟨2, ![512, 4096]⟩ : Shape).Idx → BitVec 32) (qz : (⟨2, ![32, 512]⟩ : Shape).Idx → BitVec 32)
    (sc : (⟨2, ![32, 4096]⟩ : Shape).Idx → EReal) : (⟨2, ![4096, 4096]⟩ : Shape).Idx → EReal :=
  fun i => deqAt qw qz sc (i 0).val (i 1).val (idx2_lt0 i) (idx2_lt1 i)

/-- Entry `(r, n)` of activations times weights plus bias. -/
def linAt (x : (⟨2, ![16384, 4096]⟩ : Shape).Idx → EReal) (w : (⟨2, ![4096, 4096]⟩ : Shape).Idx → EReal)
    (b : (⟨1, ![4096]⟩ : Shape).Idx → EReal) (r n : Nat) (hr : r < 16384) (hn : n < 4096) : EReal :=
  (∑ k : Fin 4096, x (ix2 ⟨r, hr⟩ k) * w (ix2 k ⟨n, hn⟩)) + b (ix1 ⟨n, hn⟩)

/-- Activations times weights plus bias. -/
def lin (x : (⟨2, ![16384, 4096]⟩ : Shape).Idx → EReal) (w : (⟨2, ![4096, 4096]⟩ : Shape).Idx → EReal)
    (b : (⟨1, ![4096]⟩ : Shape).Idx → EReal) : (⟨2, ![16384, 4096]⟩ : Shape).Idx → EReal :=
  fun i => linAt x w b (i 0).val (i 1).val (idx2_lt0 i) (idx2_lt1 i)

/-- Two coordinate pairs with equal values are one index. -/
theorem ix2_congr {n0 n1 : Nat} {a a' : Fin n0} {b b' : Fin n1} (ha : a.val = a'.val) (hb : b.val = b'.val) :
    ix2 a b = ix2 a' b' := by
  rw [Fin.ext ha, Fin.ext hb]

end Cert.Spec

end
-- ==== Proof.Layouts.lean ====
/-
  The re-layouts of the dequantization body, each read at coordinates.  A shape cast keeps the row-major
  position of an element; a broadcast reads its operand at coordinate 0 on each unit axis.  Sizes are the
  literal ones of one 1024 x 1024 output block: 128 packed rows of 8 nibbles, 8 groups of 128 rows,
  128 packed zero-point columns of 8 nibbles.
-/
import Idealize.ShloMosaic.Lib.Pipeline.Value
import Idealize.ShloMosaic.Lib.ValueIdx

namespace Cert.Layouts

open Idealize.ShloMosaic Idealize.ShloMosaic.ValueIdx

variable {α : Type}

/-! ## Shape casts -/

/-- Rows split into 8 groups of 128: row `p` is found as row `p % 128` of group `p / 128`. -/
theorem cast_rows_to_groups (v : (⟨2, ![1024, 1024]⟩ : Shape).Idx → α)
    (h : (⟨2, ![1024, 1024]⟩ : Shape).ShapeCasts ⟨3, ![8, 128, 1024]⟩) (p q : Fin 1024) :
    shapeCast ⟨3, ![8, 128, 1024]⟩ v h (ix3 ⟨p.val / 128, by omega⟩ ⟨p.val % 128, by omega⟩ q) = v (ix2 p q) :=
  shapeCast_apply v h _ _ (by
    rw [Shape.rowMajor_val_two, Shape.rowMajor_val_three]
    show p.val * 1024 + q.val = (p.val / 128 * 128 + p.val % 128) * 1024 + q.val
    omega)

/-- Groups of rows merged back: row `p` is row `p % 128` of group `p / 128`. -/
theorem cast_groups_to_rows (v : (⟨3, ![8, 128, 1024]⟩ : Shape).Idx → α)
    (h : (⟨3, ![8, 128, 1024]⟩ : Shape).ShapeCasts ⟨2, ![1024, 1024]⟩) (p q : Fin 1024) :
    shapeCast ⟨2, ![1024, 1024]⟩ v h (ix2 p q)
      = v (ix3 ⟨p.val / 128, by omega⟩ ⟨p.val % 128, by omega⟩ q) :=
  shapeCast_apply v h _ _ (by
    rw [Shape.rowMajor_val_two, Shape.rowMajor_val_three]
    show (p.val / 128 * 128 + p.val % 128) * 1024 + q.val = p.val * 1024 + q.val
    omega)

/-- Eight nibble rows per packed row, merged: row `p` is nibble `p % 8` of packed row `p / 8`. -/
theorem cast_nibbles_to_rows (v : (⟨3, ![128, 8, 1024]⟩ : Shape).Idx → α)
    (h : (⟨3, ![128, 8, 1024]⟩ : Shape).ShapeCasts ⟨2, ![1024, 1024]⟩) (p q : Fin 1024) :
    shapeCast ⟨2, ![1024, 1024]⟩ v h (ix2 p q)
      = v (ix3 ⟨p.val / 8, by omega⟩ ⟨p.val % 8, by omega⟩ q) :=
  shapeCast_apply v h _ _ (by
    rw [Shape.rowMajor_val_two, Shape.rowMajor_val_three]
    show (p.val / 8 * 8 + p.val % 8) * 1024 + q.val = p.val * 1024 + q.val
    omega)

/-- Eight nibble columns per packed column, merged: column `q` is nibble `q % 8` of packed column `q / 8`. -/
theorem cast_nibbles_to_cols (v : (⟨3, ![8, 128, 8]⟩ : Shape).Idx → α)
    (h : (⟨3, ![8, 128, 8]⟩ : Shape).ShapeCasts ⟨2, ![8, 1024]⟩) (g : Fin 8) (q : Fin 1024) :
    shapeCast ⟨2, ![8, 1024]⟩ v h (ix2 g q)
      = v (ix3 g ⟨q.val / 8, by omega⟩ ⟨q.val % 8, by omega⟩) :=
  shapeCast_apply v h _ _ (by
    rw [Shape.rowMajor_val_two, Shape.rowMajor_val_three]
    show (g.val * 128 + q.val / 8) * 8 + q.val % 8 = g.val * 1024 + q.val
    omega)

/-- A unit axis put in the middle of a 128 x 1024 matrix. -/
theorem cast_mid_unit_128 (v : (⟨2, ![128, 1024]⟩ : Shape).Idx → α)
    (h : (⟨2, ![128, 1024]⟩ : Shape).ShapeCasts ⟨3, ![128, 1, 1024]⟩) (a : Fin 128) (z : Fin 1) (q : Fin 1024) :
    shapeCast ⟨3, ![128, 1, 1024]⟩ v h (ix3 a z q) = v (ix2 a q) :=
  shapeCast_apply v h _ _ (by
    rw [Shape.rowMajor_val_two, Shape.rowMajor_val_three]
    show a.val * 1024 + q.val = (a.val * 1 + z.val) * 1024 + q.val
    have := z.isLt; omega)

/-- A unit axis put in the middle of an 8 x 1024 matrix. -/
theorem cast_mid_unit_8 (v : (⟨2, ![8, 1024]⟩ : Shape).Idx → α)
    (h : (⟨2, ![8, 1024]⟩ : Shape).ShapeCasts ⟨3, ![8, 1, 1024]⟩) (g : Fin 8) (z : Fin 1) (q : Fin 1024) :
    shapeCast ⟨3, ![8, 1, 1024]⟩ v h (ix3 g z q) = v (ix2 g q) :=
  shapeCast_apply v h _ _ (by
    rw [Shape.rowMajor_val_two, Shape.rowMajor_val_three]
    show g.val * 1024 + q.val = (g.val * 1 + z.val) * 1024 + q.val
    have := z.isLt; omega)

/-- A unit axis put last on an 8 x 128 matrix. -/
theorem cast_last_unit (v : (⟨2, ![8, 128]⟩ : Shape).Idx → α)
    (h : (⟨2, ![8, 128]⟩ : Shape).ShapeCasts ⟨3, ![8, 128, 1]⟩) (g : Fin 8) (u : Fin 128) (z : Fin 1) :
    shapeCast ⟨3, ![8, 128, 1]⟩ v h (ix3 g u z) = v (ix2 g u) :=
  shapeCast_apply v h _ _ (by
    rw [Shape.rowMajor_val_two, Shape.rowMajor_val_three]
    show g.val * 128 + u.val = (g.val * 128 + u.val) * 1 + z.val
    have := z.isLt; omega)

/-! ## Broadcasts -/

/-- A packed row repeated for its eight nibbles. -/
theorem bcast_over_nibble_rows (v : (⟨3, ![128, 1, 1024]⟩ : Shape).Idx → α)
    (h : (⟨3, ![128, 1, 1024]⟩ : Shape).Broadcasts ⟨3, ![128, 8, 1024]⟩) (a : Fin 128) (s : Fin 8) (q : Fin 1024) :
    broadcastTo ⟨3, ![128, 8, 1024]⟩ v h (ix3 a s q) = v (ix3 a 0 q) :=
  broadcastTo_apply v h _ _ (fun d => by
    match d with
    | ⟨0, _⟩ => show a.val = if (128 : Nat) = 1 then 0 else a.val; rw [if_neg (by decide)]
    | ⟨1, _⟩ => show 0 = if (1 : Nat) = 1 then 0 else s.val; rw [if_pos rfl]
    | ⟨2, _⟩ => show q.val = if (1024 : Nat) = 1 then 0 else q.val; rw [if_neg (by decide)])

/-- The eight row shifts repeated over packed rows and columns. -/
theorem bcast_row_shifts (v : (⟨3, ![1, 8, 1]⟩ : Shape).Idx → α)
    (h : (⟨3, ![1, 8, 1]⟩ : Shape).Broadcasts ⟨3, ![128, 8, 1024]⟩) (a : Fin 128) (s : Fin 8) (q : Fin 1024) :
    broadcastTo ⟨3, ![128, 8, 1024]⟩ v h (ix3 a s q) = v (ix3 0 s 0) :=
  broadcastTo_apply v h _ _ (fun d => by
    match d with
    | ⟨0, _⟩ => show 0 = if (1 : Nat) = 1 then 0 else a.val; rw [if_pos rfl]
    | ⟨1, _⟩ => show s.val = if (8 : Nat) = 1 then 0 else s.val; rw [if_neg (by decide)]
    | ⟨2, _⟩ => show 0 = if (1 : Nat) = 1 then 0 else q.val; rw [if_pos rfl])

/-- A packed zero-point word repeated for its eight nibbles. -/
theorem bcast_over_nibble_cols (v : (⟨3, ![8, 128, 1]⟩ : Shape).Idx → α)
    (h : (⟨3, ![8, 128, 1]⟩ : Shape).Broadcasts ⟨3, ![8, 128, 8]⟩) (g : Fin 8) (u : Fin 128) (s : Fin 8) :
    broadcastTo ⟨3, ![8, 128, 8]⟩ v h (ix3 g u s) = v (ix3 g u 0) :=
  broadcastTo_apply v h _ _ (fun d => by
    match d with
    | ⟨0, _⟩ => show g.val = if (8 : Nat) = 1 then 0 else g.val; rw [if_neg (by decide)]
    | ⟨1, _⟩ => show u.val = if (128 : Nat) = 1 then 0 else u.val; rw [if_neg (by decide)]
    | ⟨2, _⟩ => show 0 = if (1 : Nat) = 1 then 0 else s.val; rw [if_pos rfl])

/-- The eight column shifts repeated over groups and packed columns. -/
theorem bcast_col_shifts (v : (⟨3, ![1, 1, 8]⟩ : Shape).Idx → α)
    (h : (⟨3, ![1, 1, 8]⟩ : Shape).Broadcasts ⟨3, ![8, 128, 8]⟩) (g : Fin 8) (u : Fin 128) (s : Fin 8) :
    broadcastTo ⟨3, ![8, 128, 8]⟩ v h (ix3 g u s) = v (ix3 0 0 s) :=
  broadcastTo_apply v h _ _ (fun d => by
    match d with
    | ⟨0, _⟩ => show 0 = if (1 : Nat) = 1 then 0 else g.val; rw [if_pos rfl]
    | ⟨1, _⟩ => show 0 = if (1 : Nat) = 1 then 0 else u.val; rw [if_pos rfl]
    | ⟨2, _⟩ => show s.val = if (8 : Nat) = 1 then 0 else s.val; rw [if_neg (by decide)])

/-- One row per group repeated over the group's 128 rows. -/
theorem bcast_over_group_rows (v : (⟨3, ![8, 1, 1024]⟩ : Shape).Idx → α)
    (h : (⟨3, ![8, 1, 1024]⟩ : Shape).Broadcasts ⟨3, ![8, 128, 1024]⟩) (g : Fin 8) (r : Fin 128) (q : Fin 1024) :
    broadcastTo ⟨3, ![8, 128, 1024]⟩ v h (ix3 g r q) = v (ix3 g 0 q) :=
  broadcastTo_apply v h _ _ (fun d => by
    match d with
    | ⟨0, _⟩ => show g.val = if (8 : Nat) = 1 then 0 else g.val; rw [if_neg (by decide)]
    | ⟨1, _⟩ => show 0 = if (1 : Nat) = 1 then 0 else r.val; rw [if_pos rfl]
    | ⟨2, _⟩ => show q.val = if (1024 : Nat) = 1 then 0 else q.val; rw [if_neg (by decide)])

end Cert.Layouts
-- ==== Proof.DequantBody.lean ====
/-
  What the dequantization body stores, read at one entry of its 1024 x 1024 output block.

  The body sees 128 packed weight rows, 8 rows of packed zero points and 8 rows of scales.  Entry (p, q) of
  the block is   scale[p / 128, q] * (nib(qw[p / 8, q], p % 8) - nib(qz[p / 128, q / 8], q % 8)):
  the eight nibbles of a weight word go to eight consecutive ROWS, the eight nibbles of a zero-point word to
  eight consecutive COLUMNS, and one scale and zero point serve the 128 rows of a group.  The final
  narrowing to a 16-bit float format changes nothing over the extended reals.
-/
import proofs.«422695_j128849019569_3_alg».proof.Proof.Gen.KernelIdeal.Skeleton
import proofs.«422695_j128849019569_3_alg».proof.Proof.Spec
import proofs.«422695_j128849019569_3_alg».proof.Proof.Layouts

noncomputable section

namespace Cert.KernelIdeal.DequantBody

open Idealize.ShloMosaic Idealize.ShloMosaic.ValueIdx Cert.KernelIdeal Cert.KernelIdeal.Gen Cert.Spec Cert.Layouts

theorem andi_apply {s : Shape} {w : Nat} (x y : IVec s w) (i : s.Idx) : andi x y i = IntOp.andi (x i) (y i) := rfl
theorem shrsi_apply {s : Shape} {w : Nat} (x y : IVec s w) (i : s.Idx) : shrsi x y i = IntOp.shrsi .vector (x i) (y i) := rfl
theorem muli_apply {s : Shape} {w : Nat} (x y : IVec s w) (i : s.Idx) : muli x y i = IntOp.muli (x i) (y i) := rfl

/-- The unpacked weights of the block: entry (p, q) is nibble `p % 8` of packed row `p / 8`. -/
theorem weight_nibble (x0 : IVec S128x1024 32) (p q : Fin 1024) :
    shapeCast S1024x1024
        (andi (shrsi (broadcastTo S128x8x1024 (shapeCast S128x1x1024 x0 shapeCasts_S128x1024_S128x1x1024) broadcasts_S128x1x1024_S128x8x1024)
                (broadcastTo S128x8x1024 (muli (iota .tc S1x8x1 32 [1] iota_S1x8x1_d1_w32) (broadcast S1x8x1 4#32)) broadcasts_S1x8x1_S128x8x1024))
          (broadcast S128x8x1024 15#32))
        shapeCasts_S128x8x1024_S1024x1024 (ix2 p q)
      = nib (x0 (ix2 ⟨p.val / 8, by omega⟩ q)) (p.val % 8) := by
  rw [cast_nibbles_to_rows, andi_apply, shrsi_apply, bcast_over_nibble_rows, cast_mid_unit_128, bcast_row_shifts,
    muli_apply, iota_single_apply, broadcast_apply, broadcast_apply]
  show IntOp.andi (IntOp.shrsi .vector (x0 (ix2 ⟨p.val / 8, _⟩ q)) (IntOp.muli (BitVec.ofNat 32 (p.val % 8)) 4#32)) 15#32 = _
  rw [shamt_of_mul _ (Nat.mod_lt _ (by decide))]
  rfl

/-- The unpacked zero points of the block's eight groups: entry (g, q) is nibble `q % 8` of packed column `q / 8`. -/
theorem zero_nibble (x1 : IVec S8x128 32) (g : Fin 8) (q : Fin 1024) :
    shapeCast S8x1024
        (andi (shrsi (broadcastTo S8x128x8 (shapeCast S8x128x1 x1 shapeCasts_S8x128_S8x128x1) broadcasts_S8x128x1_S8x128x8)
                (broadcastTo S8x128x8 (muli (iota .tc S1x1x8 32 [2] iota_S1x1x8_d2_w32) (broadcast S1x1x8 4#32)) broadcasts_S1x1x8_S8x128x8))
          (broadcast S8x128x8 15#32))
        shapeCasts_S8x128x8_S8x1024 (ix2 g q)
      = nib (x1 (ix2 g ⟨q.val / 8, by omega⟩)) (q.val % 8) := by
  rw [cast_nibbles_to_cols, andi_apply, shrsi_apply, bcast_over_nibble_cols, cast_last_unit, bcast_col_shifts,
    muli_apply, iota_single_apply, broadcast_apply, broadcast_apply]
  show IntOp.andi (IntOp.shrsi .vector (x1 (ix2 g ⟨q.val / 8, _⟩)) (IntOp.muli (BitVec.ofNat 32 (q.val % 8)) 4#32)) 15#32 = _
  rw [shamt_of_mul _ (Nat.mod_lt _ (by decide))]
  rfl

/-- THE BLOCK'S ENTRY: scale times (weight nibble minus zero-point nibble). -/
theorem dequant_block_apply (x0 : Vec Ideal S128x1024 .i32) (x1 : Vec Ideal S8x128 .i32) (x2 : Vec Ideal S8x1024 .f32) (p q : Fin 1024) :
    k0_pay1 (F := Ideal) x0 x1 x2 (ix2 p q)
      = x2 (ix2 ⟨p.val / 128, by omega⟩ q)
          * (FloatOps.sitofp (F := Ideal) .f32 (nib (x0 (ix2 ⟨p.val / 8, by omega⟩ q)) (p.val % 8))
            - FloatOps.sitofp (F := Ideal) .f32 (nib (x1 (ix2 ⟨p.val / 128, by omega⟩ ⟨q.val / 8, by omega⟩)) (q.val % 8))) := by
  unfold k0_pay1
  dsimp only
  rw [truncf_apply, cast_groups_to_rows, mulf_apply, subf_apply, bcast_over_group_rows, cast_mid_unit_8,
    cast_rows_to_groups, sitofp_apply, weight_nibble, bcast_over_group_rows, cast_mid_unit_8, sitofp_apply, zero_nibble]

/-- The same at any index of the block, through its two coordinates. -/
theorem dequant_block_at (x0 : Vec Ideal S128x1024 .i32) (x1 : Vec Ideal S8x128 .i32) (x2 : Vec Ideal S8x1024 .f32) (y : S1024x1024.Idx) :
    k0_pay1 (F := Ideal) x0 x1 x2 y
      = x2 (ix2 ⟨(y 0).val / 128, by have := idx2_lt0 y; omega⟩ ⟨(y 1).val, idx2_lt1 y⟩)
          * (FloatOps.sitofp (F := Ideal) .f32 (nib (x0 (ix2 ⟨(y 0).val / 8, by have := idx2_lt0 y; omega⟩ ⟨(y 1).val, idx2_lt1 y⟩)) ((y 0).val % 8))
            - FloatOps.sitofp (F := Ideal) .f32 (nib (x1 (ix2 ⟨(y 0).val / 128, by have := idx2_lt0 y; omega⟩ ⟨(y 1).val / 8, by have := idx2_lt1 y; omega⟩)) ((y 1).val % 8))) :=
  (congrArg (k0_pay1 (F := Ideal) x0 x1 x2) (eq_ix2 y)).trans
    (dequant_block_apply x0 x1 x2 ⟨(y 0).val, idx2_lt0 y⟩ ⟨(y 1).val, idx2_lt1 y⟩)

end Cert.KernelIdeal.DequantBody

end
-- ==== Proof.Blocks.lean ====
/-
  The two whole-array functions read through a block.

  The weight matrix is produced in 1024 x 1024 blocks: entry (p, q) of block (bi, bj) is entry
  (1024 bi + p, 1024 bj + q) of the matrix.  The packed weights feeding it are rows 128 bi .. of the packed
  array (128 bi + p / 8 = (1024 bi + p) / 8), its zero points and scales rows 8 bi .. (8 bi + p / 128 =
  (1024 bi + p) / 128), the packed zero-point columns 128 bj .. (128 bj + q / 8 = (1024 bj + q) / 8); the
  nibble positions p % 8 and q % 8 do not see the block offset, a multiple of 8.
  The output is produced in 512 x 1024 blocks from whole rows of the activations and whole columns of the
  weights, so a block entry's sum over the contracted axis already is the entry of the full product.
-/
import proofs.«422695_j128849019569_3_alg».proof.Proof.Spec

noncomputable section

namespace Cert.Spec

open Idealize.ShloMosaic Idealize.ShloMosaic.ValueIdx

/-- An index of a matrix is determined by its two coordinates' values. -/
theorem idx2_eq {n0 n1 : Nat} (y : (⟨2, ![n0, n1]⟩ : Shape).Idx) (a : Fin n0) (b : Fin n1)
    (h0 : (y 0).val = a.val) (h1 : (y 1).val = b.val) : y = ix2 a b := by
  funext d
  match d with
  | ⟨0, _⟩ => exact Fin.ext h0
  | ⟨1, _⟩ => exact Fin.ext h1

/-- An index of a vector is determined by its coordinate's value. -/
theorem idx1_eq {n : Nat} (y : (⟨1, ![n]⟩ : Shape).Idx) (a : Fin n) (h0 : (y 0).val = a.val) : y = ix1 a := by
  funext d
  match d with
  | ⟨0, _⟩ => exact Fin.ext h0

/-- ENTRY (p, q) OF BLOCK (bi, bj) OF THE WEIGHT MATRIX, from the entries of the three packed blocks that feed it. -/
theorem deq_block (qw : (⟨2, ![512, 4096]⟩ : Shape).Idx → BitVec 32) (qz : (⟨2, ![32, 512]⟩ : Shape).Idx → BitVec 32)
    (sc : (⟨2, ![32, 4096]⟩ : Shape).Idx → EReal) (bi bj : Nat) (hbi : bi ≤ 3) (hbj : bj ≤ 3) (p q : Fin 1024)
    (i : (⟨2, ![4096, 4096]⟩ : Shape).Idx) (hi0 : (i 0).val = bi * 1024 + p.val) (hi1 : (i 1).val = bj * 1024 + q.val)
    (yw : (⟨2, ![512, 4096]⟩ : Shape).Idx) (hw0 : (yw 0).val = bi * 128 + p.val / 8) (hw1 : (yw 1).val = bj * 1024 + q.val)
    (yz : (⟨2, ![32, 512]⟩ : Shape).Idx) (hz0 : (yz 0).val = bi * 8 + p.val / 128) (hz1 : (yz 1).val = bj * 128 + q.val / 8)
    (ys : (⟨2, ![32, 4096]⟩ : Shape).Idx) (hs0 : (ys 0).val = bi * 8 + p.val / 128) (hs1 : (ys 1).val = bj * 1024 + q.val) :
    sc ys * (FloatOps.sitofp (F := Ideal) .f32 (nib (qw yw) (p.val % 8)) - FloatOps.sitofp (F := Ideal) .f32 (nib (qz yz) (q.val % 8)))
      = deq qw qz sc i := by
  have hp := p.isLt
  have hq := q.isLt
  unfold deq deqAt
  rw [idx2_eq ys ⟨(i 0).val / 128, by omega⟩ ⟨(i 1).val, idx2_lt1 i⟩ (by show (ys 0).val = (i 0).val / 128; omega) (by show (ys 1).val = (i 1).val; omega),
    idx2_eq yw ⟨(i 0).val / 8, by omega⟩ ⟨(i 1).val, idx2_lt1 i⟩ (by show (yw 0).val = (i 0).val / 8; omega) (by show (yw 1).val = (i 1).val; omega),
    idx2_eq yz ⟨(i 0).val / 128, by omega⟩ ⟨(i 1).val / 8, by omega⟩ (by show (yz 0).val = (i 0).val / 128; omega) (by show (yz 1).val = (i 1).val / 8; omega),
    show p.val % 8 = (i 0).val % 8 by omega, show q.val % 8 = (i 1).val % 8 by omega]

/-- ENTRY (p, n) OF BLOCK (bm, bn) OF THE OUTPUT, from a whole row of the activations, a whole column of the weights and a
    bias entry. -/
theorem lin_block (x : (⟨2, ![16384, 4096]⟩ : Shape).Idx → EReal) (w : (⟨2, ![4096, 4096]⟩ : Shape).Idx → EReal)
    (b : (⟨1, ![4096]⟩ : Shape).Idx → EReal) (bm bn : Nat) (hbm : bm ≤ 31) (hbn : bn ≤ 3) (p : Fin 512) (n : Fin 1024)
    (i : (⟨2, ![16384, 4096]⟩ : Shape).Idx) (hi0 : (i 0).val = bm * 512 + p.val) (hi1 : (i 1).val = bn * 1024 + n.val)
    (yx : Fin 4096 → (⟨2, ![16384, 4096]⟩ : Shape).Idx) (hx0 : ∀ k, (yx k 0).val = bm * 512 + p.val) (hx1 : ∀ k, (yx k 1).val = k.val)
    (yw : Fin 4096 → (⟨2, ![4096, 4096]⟩ : Shape).Idx) (hw0 : ∀ k, (yw k 0).val = k.val) (hw1 : ∀ k, (yw k 1).val = bn * 1024 + n.val)
    (yb : (⟨1, ![4096]⟩ : Shape).Idx) (hb0 : (yb 0).val = bn * 1024 + n.val) :
    (∑ k : Fin 4096, x (yx k) * w (yw k)) + b yb = lin x w b i := by
  unfold lin linAt
  rw [idx1_eq yb ⟨(i 1).val, idx2_lt1 i⟩ (by show (yb 0).val = (i 1).val; omega)]
  refine congrArg (· + _) (Finset.sum_congr rfl fun k _ => ?_)
  rw [idx2_eq (yx k) ⟨(i 0).val, idx2_lt0 i⟩ k (by show (yx k 0).val = (i 0).val; rw [hx0 k]; omega) (hx1 k),
    idx2_eq (yw k) k ⟨(i 1).val, idx2_lt1 i⟩ (hw0 k) (by show (yw k 1).val = (i 1).val; rw [hw1 k]; omega)]

/-! ## The whole layer -/

/-- Merging the two leading axes of the activations into rows keeps every element's row-major position. -/
theorem rows_merge : (⟨3, ![8, 2048, 4096]⟩ : Shape).ShapeCasts ⟨2, ![16384, 4096]⟩ := by decide
/-- Splitting the rows back likewise. -/
theorem rows_split : (⟨2, ![16384, 4096]⟩ : Shape).ShapeCasts ⟨3, ![8, 2048, 4096]⟩ := by decide

/-- THE LAYER: the activations' rows against the dequantized weights, plus the bias, in the activations' own layout. -/
def layer (x : (⟨3, ![8, 2048, 4096]⟩ : Shape).Idx → EReal) (qw : (⟨2, ![512, 4096]⟩ : Shape).Idx → BitVec 32)
    (qz : (⟨2, ![32, 512]⟩ : Shape).Idx → BitVec 32) (sc : (⟨2, ![32, 4096]⟩ : Shape).Idx → EReal)
    (b : (⟨1, ![4096]⟩ : Shape).Idx → EReal) : (⟨3, ![8, 2048, 4096]⟩ : Shape).Idx → EReal :=
  shapeCast ⟨3, ![8, 2048, 4096]⟩ (lin (shapeCast ⟨2, ![16384, 4096]⟩ x rows_merge) (deq qw qz sc) b) rows_split

end Cert.Spec

end
-- ==== Proof.DequantRegion.lean ====
/-
  The first call: the whole dequantized weight matrix.

  Its 4 x 4 grid visits every 1024 x 1024 block of the 4096 x 4096 matrix once; at block (bi, bj) the three input
  windows sit at the same block coordinates of their own arrays, so what the point writes back is that block of
  `deq` of the packed weights, packed zero points and scales.  The blocks tile the matrix, so after the call the
  array is `deq` everywhere, whatever it held before.
-/
import proofs.«422695_j128849019569_3_alg».proof.Proof.Gen.KernelIdeal.Frame
import proofs.«422695_j128849019569_3_alg».proof.Proof.DequantBody
import proofs.«422695_j128849019569_3_alg».proof.Proof.Blocks

set_option maxRecDepth 16384

noncomputable section

namespace Cert.KernelIdeal.DequantRegion

open Idealize.ShloMosaic Idealize.ShloMosaic.TcCoe Idealize.ShloMosaic.ValueIdx Idealize.SL.Sem
open Cert.KernelIdeal Cert.KernelIdeal.Gen Cert.Spec
open Idealize.ShloMosaic.Pipeline (Dat)

-- the buffer contents when the call is entered: whatever they are
variable (V : (c : Dev nD) → (b : Ref sig .tc) → Buf (Elt Ideal) ((c : Thread nD τ).loc b))

theorem origin_zero : (![0, 0] : Fin 2 → Nat) = fun _ => 0 := funext fun a => by fin_cases a <;> rfl

/-- The packed weights, the packed zero points and the scales as the call finds them. -/
abbrev qwArr (c : Dev nD) : S512x4096.Idx → BitVec 32 := V c main_arg1
abbrev qzArr (c : Dev nD) : S32x512.Idx → BitVec 32 := V c main_arg2
abbrev scArr (c : Dev nD) : S32x4096.Idx → EReal := V c main_arg3

/-- The printed index maps, decided over the 16 grid points: every window sits at the output block's coordinates, which
    stay below 4. -/
theorem block_coords : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) ≤ 3 ∧ win0_3.index t (1 : Fin 2) ≤ 3 :=
  (by decide +kernel : ∀ t : Fin grid0.N, _)

/-- Every block of the matrix is some point's. -/
theorem block_onto : ∀ (q0 : Fin 4) (q1 : Fin 4), ∃ t : Fin cfg0.N, win0_3.index t = ![q0.val, q1.val] :=
  (by decide +kernel : ∀ (q0 : Fin 4) (q1 : Fin 4), ∃ t : Fin grid0.N, win0_3.index t = ![q0.val, q1.val])

/-- WHAT POINT `t` WRITES BACK is block `t` of the dequantized matrix of the three arrays as the call finds them. -/
theorem flushed_eq (c : Dev nD) (t : Fin cfg0.N) :
    (dat0 V c).flushed 3 t
      = ((cfg0.win 3).blk t).view.read (Elt Ideal) (deq (qwArr V c) (qzArr V c) (scArr V c)) := by
  show (cfg0.win 3).cut (grid0.coords t) ((dat0 V c).after 3 t) = _
  rw [after0_3]
  unfold out0_3
  rw [View.canon_unit_zero origin_zero]
  simp only [View.ld_unit_zero (S := S128x1024) origin_zero, View.ld_unit_zero (S := S8x128) origin_zero,
    View.ld_unit_zero (S := S8x1024) origin_zero]
  obtain ⟨e0, e1, e2, e3, e4, e5, e6, e7⟩ := block_coords t
  funext j
  have hj0 : (j 0).val < 1024 := (j 0).isLt
  have hj1 : (j 1).val < 1024 := (j 1).isLt
  refine (DequantBody.dequant_block_at (iblk0 V c 0 t) (iblk0 V c 1 t) (iblk0 V c 2 t) j).trans ?_
  show scArr V c (((cfg0.win 2).blk t).view.emb (ix2 ⟨(j 0).val / 128, _⟩ ⟨(j 1).val, _⟩))
      * (FloatOps.sitofp (F := Ideal) .f32 (nib (qwArr V c (((cfg0.win 0).blk t).view.emb (ix2 ⟨(j 0).val / 8, _⟩ ⟨(j 1).val, _⟩))) ((j 0).val % 8))
        - FloatOps.sitofp (F := Ideal) .f32 (nib (qzArr V c (((cfg0.win 1).blk t).view.emb (ix2 ⟨(j 0).val / 128, _⟩ ⟨(j 1).val / 8, _⟩))) ((j 1).val % 8)))
    = deq (qwArr V c) (qzArr V c) (scArr V c) (((cfg0.win 3).blk t).view.emb j)
  exact deq_block (qwArr V c) (qzArr V c) (scArr V c) (win0_3.index t (0 : Fin 2)) (win0_3.index t (1 : Fin 2)) e6 e7
    ⟨(j 0).val, hj0⟩ ⟨(j 1).val, hj1⟩ _
    (by show win0_3.index t (0 : Fin 2) * 1024 + 1 * (j 0).val = win0_3.index t (0 : Fin 2) * 1024 + (j 0).val; omega)
    (by show win0_3.index t (1 : Fin 2) * 1024 + 1 * (j 1).val = win0_3.index t (1 : Fin 2) * 1024 + (j 1).val; omega)
    _
    (by show win0_0.index t (0 : Fin 2) * 128 + 1 * ((j 0).val / 8) = win0_3.index t (0 : Fin 2) * 128 + (j 0).val / 8; omega)
    (by show win0_0.index t (1 : Fin 2) * 1024 + 1 * (j 1).val = win0_3.index t (1 : Fin 2) * 1024 + (j 1).val; omega)
    _
    (by show win0_1.index t (0 : Fin 2) * 8 + 1 * ((j 0).val / 128) = win0_3.index t (0 : Fin 2) * 8 + (j 0).val / 128; omega)
    (by show win0_1.index t (1 : Fin 2) * 128 + 1 * ((j 1).val / 8) = win0_3.index t (1 : Fin 2) * 128 + (j 1).val / 8; omega)
    _
    (by show win0_2.index t (0 : Fin 2) * 8 + 1 * ((j 0).val / 128) = win0_3.index t (0 : Fin 2) * 8 + (j 0).val / 128; omega)
    (by show win0_2.index t (1 : Fin 2) * 1024 + 1 * (j 1).val = win0_3.index t (1 : Fin 2) * 1024 + (j 1).val; omega)

/-- An index of the matrix is in point `t`'s block iff each coordinate is in the block's range on its axis. -/
theorem mem_blk (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every entry of the matrix is in the block of the point at its coordinates divided by 1024. -/
theorem covered (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := block_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE ARRAY AFTER THE CALL is the dequantized weight matrix. -/
theorem array_eq (c : Dev nD) :
    (dat0 V c).arrAt 3 cfg0.N = deq (qwArr V c) (qzArr V c) (scArr V c) :=
  (dat0 V c).arrAt_eq_of_cover 3 _ (fun t _ => flushed_eq V c t) covered

end Cert.KernelIdeal.DequantRegion

end
-- ==== Proof.MatmulBody.lean ====
/-
  What the product body stores, read at one entry of its 512 x 1024 output block.

  The body sees 512 whole rows of the activations (all 4096 features), a 4096 x 1024 panel of the weight
  matrix and 1024 bias entries.  It multiplies into a zero accumulator and adds the bias row, so entry
  (p, n) of the block is   (sum over k < 4096 of x[p, k] * w[k, n]) + bias[n]:
  the whole contraction at once, not a partial sum.  Narrowing the activations to a 16-bit float format
  before the product changes nothing over the extended reals.
-/
import proofs.«422695_j128849019569_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MatmulBody

open Idealize.ShloMosaic Idealize.ShloMosaic.ValueIdx Cert.KernelIdeal Cert.KernelIdeal.Gen

/-! ## The product's operand indices: row of the left operand, column of the right, the contracted axis shared -/

theorem lhs_tile_0 (i : S512x1024.Idx) (q : dot_S512x4096_S4096x1024_S512x1024_1_0_0_1_n_n.contr.Idx) :
    (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
theorem lhs_tile_1 (i : S512x1024.Idx) (q : dot_S512x4096_S4096x1024_S512x1024_1_0_0_1_n_n.contr.Idx) :
    (dot_S512x4096_S4096x1024_S512x1024_1_0_0_1_n_n.lhsIdx i q 1).val = (q ⟨0, by decide⟩).val :=
  dot_S512x4096_S4096x1024_S512x1024_1_0_0_1_n_n.lhsIdx_val_of_single rfl i q
theorem rhs_tile_0 (i : S512x1024.Idx) (q : dot_S512x4096_S4096x1024_S512x1024_1_0_0_1_n_n.contr.Idx) :
    (dot_S512x4096_S4096x1024_S512x1024_1_0_0_1_n_n.rhsIdx i q 0).val = (q ⟨0, by decide⟩).val :=
  dot_S512x4096_S4096x1024_S512x1024_1_0_0_1_n_n.rhsIdx_val_of_single rfl i q
theorem rhs_tile_1 (i : S512x1024.Idx) (q : dot_S512x4096_S4096x1024_S512x1024_1_0_0_1_n_n.contr.Idx) :
    (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- A product into a zero accumulator is the plain sum of products over the 4096 contracted positions. -/
theorem tile_product (l : FVec Ideal S512x4096 .bf16) (r : FVec Ideal S4096x1024 .bf16) (p : Fin 512) (n : Fin 1024) :
    matmul dot_S512x4096_S4096x1024_S512x1024_1_0_0_1_n_n none l r (constant S512x1024 .f32 0x00000000#32) (ix2 p n)
      = ∑ k : Fin 4096, l (ix2 p k) * r (ix2 k n) := by
  show FloatOps.matmul dot_S512x4096_S4096x1024_S512x1024_1_0_0_1_n_n none l r (constant S512x1024 .f32 0x00000000#32) (ix2 p n) = _
  rw [Ideal.matmul_constant_zero_apply, ← Equiv.sum_comp (contrEquiv1 dot_S512x4096_S4096x1024_S512x1024_1_0_0_1_n_n 4096 rfl rfl).symm]
  refine Finset.sum_congr rfl fun k _ => ?_
  have hk := contrEquiv1_symm_val dot_S512x4096_S4096x1024_S512x1024_1_0_0_1_n_n 4096 rfl rfl k
  have el : dot_S512x4096_S4096x1024_S512x1024_1_0_0_1_n_n.lhsIdx (ix2 p n) ((contrEquiv1 dot_S512x4096_S4096x1024_S512x1024_1_0_0_1_n_n 4096 rfl rfl).symm k) = ix2 p k := funext fun a => Fin.ext (by
    match a with
    | ⟨0, _⟩ => exact lhs_tile_0 _ _
    | ⟨1, _⟩ => exact (lhs_tile_1 _ _).trans hk)
  have er : dot_S512x4096_S4096x1024_S512x1024_1_0_0_1_n_n.rhsIdx (ix2 p n) ((contrEquiv1 dot_S512x4096_S4096x1024_S512x1024_1_0_0_1_n_n 4096 rfl rfl).symm k) = ix2 k n := funext fun a => Fin.ext (by
    match a with
    | ⟨0, _⟩ => exact (rhs_tile_0 _ _).trans hk
    | ⟨1, _⟩ => exact rhs_tile_1 _ _)
  rw [el, er]

/-- THE BLOCK'S ENTRY: the row of activations against the column of weights, plus the bias entry. -/
theorem matmul_block_apply (x0 : Vec Ideal S512x4096 .f32) (x1 : Vec Ideal S4096x1024 .bf16) (x2 : Vec Ideal S1024 .f32)
    (p : Fin 512) (n : Fin 1024) :
    k1_pay1 (F := Ideal) x0 x1 x2 (ix2 p n) = (∑ k : Fin 4096, x0 (ix2 p k) * x1 (ix2 k n)) + x2 (ix1 n) := by
  unfold k1_pay1
  rw [addf_apply, tile_product, broadcastTo_1b_ab_apply, shapeCast_a_1a_apply, shapeCast_self, shapeCast_self]
  rfl

/-- The same at any index of the block, through its two coordinates. -/
theorem matmul_block_at (x0 : Vec Ideal S512x4096 .f32) (x1 : Vec Ideal S4096x1024 .bf16) (x2 : Vec Ideal S1024 .f32) (y : S512x1024.Idx) :
    k1_pay1 (F := Ideal) x0 x1 x2 y
      = (∑ k : Fin 4096, x0 (ix2 ⟨(y 0).val, idx2_lt0 y⟩ k) * x1 (ix2 k ⟨(y 1).val, idx2_lt1 y⟩)) + x2 (ix1 ⟨(y 1).val, idx2_lt1 y⟩) :=
  (congrArg (k1_pay1 (F := Ideal) x0 x1 x2) (eq_ix2 y)).trans
    (matmul_block_apply x0 x1 x2 ⟨(y 0).val, idx2_lt0 y⟩ ⟨(y 1).val, idx2_lt1 y⟩)

end Cert.KernelIdeal.MatmulBody

end
-- ==== Proof.MatmulRegion.lean ====
/-
  The second call: activations times weights plus bias, whole.

  Its 4 x 32 grid visits every 512 x 1024 block of the 16384 x 4096 output once; at block (bm, bn) the body is
  given rows 512 bm .. of the activations with all their 4096 features, columns 1024 bn .. of the weight matrix
  with all their 4096 rows, and bias entries 1024 bn ...  So what the point writes back is that block of `lin` of
  the three arrays as the call finds them -- whatever the weight array holds at that moment -- and since the
  blocks tile the output, the array ends as `lin` everywhere.
-/
import proofs.«422695_j128849019569_3_alg».proof.Proof.Gen.KernelIdeal.Frame
import proofs.«422695_j128849019569_3_alg».proof.Proof.MatmulBody
import proofs.«422695_j128849019569_3_alg».proof.Proof.Blocks

set_option maxRecDepth 16384

noncomputable section

namespace Cert.KernelIdeal.MatmulRegion

open Idealize.ShloMosaic Idealize.ShloMosaic.TcCoe Idealize.ShloMosaic.ValueIdx Idealize.SL.Sem
open Cert.KernelIdeal Cert.KernelIdeal.Gen Cert.Spec
open Idealize.ShloMosaic.Pipeline (Dat)

-- the buffer contents when the call is entered: whatever they are
variable (V : (c : Dev nD) → (b : Ref sig .tc) → Buf (Elt Ideal) ((c : Thread nD τ).loc b))

theorem origin_zero : (![0, 0] : Fin 2 → Nat) = fun _ => 0 := funext fun a => by fin_cases a <;> rfl

/-- The activations (two leading axes merged), the weight array and the bias as the call finds them. -/
abbrev xArr (c : Dev nD) : S16384x4096.Idx → EReal := V c main_v0
abbrev wArr (c : Dev nD) : S4096x4096.Idx → EReal := V c main_v1
abbrev bArr (c : Dev nD) : S4096.Idx → EReal := V c main_arg4

theorem origin_zero1 : (![0] : Fin 1 → Nat) = fun _ => 0 := funext fun a => by fin_cases a; rfl

/-- The printed index maps, decided over the 128 grid points: the activations' block is at the output's block row and
    spans every feature; the weights' and the bias' blocks are at the output's block column, the weights' spanning every
    row; the output's block coordinates stay below 32 and 4. -/
theorem block_coords : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = win1_3.index t (1 : Fin 2)
    ∧ win1_2.index t (0 : Fin 1) = win1_3.index t (1 : Fin 2)
    ∧ win1_3.index t (0 : Fin 2) ≤ 31 ∧ win1_3.index t (1 : Fin 2) ≤ 3 :=
  (by decide +kernel : ∀ t : Fin grid1.N, _)

/-- Every block of the output is some point's. -/
theorem block_onto : ∀ (q0 : Fin 32) (q1 : Fin 4), ∃ t : Fin cfg1.N, win1_3.index t = ![q0.val, q1.val] :=
  (by decide +kernel : ∀ (q0 : Fin 32) (q1 : Fin 4), ∃ t : Fin grid1.N, win1_3.index t = ![q0.val, q1.val])

/-- WHAT POINT `t` WRITES BACK is block `t` of the product, bias added, of the three arrays as the call finds them. -/
theorem flushed_eq (c : Dev nD) (t : Fin cfg1.N) :
    (dat1 V c).flushed 3 t
      = ((cfg1.win 3).blk t).view.read (Elt Ideal) (lin (xArr V c) (wArr V c) (bArr V c)) := by
  show (cfg1.win 3).cut (grid1.coords t) ((dat1 V c).after 3 t) = _
  rw [after1_3]
  unfold out1_3
  rw [View.canon_unit_zero origin_zero]
  simp only [View.ld_unit_zero (S := S512x4096) origin_zero, View.ld_unit_zero (S := S4096x1024) origin_zero,
    View.ld_unit_zero (S := S1024) origin_zero1]
  obtain ⟨e0, e1, e2, e3, e4, e5, e6⟩ := block_coords t
  funext j
  have hj0 : (j 0).val < 512 := (j 0).isLt
  have hj1 : (j 1).val < 1024 := (j 1).isLt
  refine (MatmulBody.matmul_block_at (iblk1 V c 0 t) (iblk1 V c 1 t) (iblk1 V c 2 t) j).trans ?_
  show (∑ k : Fin 4096, xArr V c (((cfg1.win 0).blk t).view.emb (ix2 ⟨(j 0).val, _⟩ k))
        * wArr V c (((cfg1.win 1).blk t).view.emb (ix2 k ⟨(j 1).val, _⟩)))
      + bArr V c (((cfg1.win 2).blk t).view.emb (ix1 ⟨(j 1).val, _⟩))
    = lin (xArr V c) (wArr V c) (bArr V c) (((cfg1.win 3).blk t).view.emb j)
  exact lin_block (xArr V c) (wArr V c) (bArr V c) (win1_3.index t (0 : Fin 2)) (win1_3.index t (1 : Fin 2)) e5 e6
    ⟨(j 0).val, hj0⟩ ⟨(j 1).val, hj1⟩ _
    (by show win1_3.index t (0 : Fin 2) * 512 + 1 * (j 0).val = win1_3.index t (0 : Fin 2) * 512 + (j 0).val; omega)
    (by show win1_3.index t (1 : Fin 2) * 1024 + 1 * (j 1).val = win1_3.index t (1 : Fin 2) * 1024 + (j 1).val; omega)
    _
    (fun k => by show win1_0.index t (0 : Fin 2) * 512 + 1 * (j 0).val = win1_3.index t (0 : Fin 2) * 512 + (j 0).val; omega)
    (fun k => by show win1_0.index t (1 : Fin 2) * 4096 + 1 * k.val = k.val; omega)
    _
    (fun k => by show win1_1.index t (0 : Fin 2) * 4096 + 1 * k.val = k.val; omega)
    (fun k => by show win1_1.index t (1 : Fin 2) * 1024 + 1 * (j 1).val = win1_3.index t (1 : Fin 2) * 1024 + (j 1).val; omega)
    _
    (by show win1_2.index t (0 : Fin 1) * 1024 + 1 * (j 1).val = win1_3.index t (1 : Fin 2) * 1024 + (j 1).val; omega)

/-- An index of the output is in point `t`'s block iff each coordinate is in the block's range on its axis. -/
theorem mem_blk (t : Fin cfg1.N) (i : S16384x4096.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v2).slice (win1_3.rect t)).set ↔ _
  rw [View.set_slice_whole, Rect.mem_set_unit]
  exact Iff.rfl

/-- Every entry of the output is in the block of the point at its row divided by 512 and its column divided by 1024. -/
theorem covered (i : S16384x4096.Idx) :
    ∃ t : Fin cfg1.N, (cfg1.win 3).flush t = true ∧ i ∈ ((cfg1.win 3).blk t).view.set := by
  have hi0 : (i 0).val < 16384 := (i 0).isLt
  have hi1 : (i 1).val < 4096 := (i 1).isLt
  obtain ⟨t, ht⟩ := block_onto ⟨(i 0).val / 512, by omega⟩ ⟨(i 1).val / 1024, by omega⟩
  have q0 : win1_3.index t (0 : Fin 2) = (i 0).val / 512 := congrFun ht 0
  have q1 : win1_3.index t (1 : Fin 2) = (i 1).val / 1024 := congrFun ht 1
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- THE ARRAY AFTER THE CALL is the product, bias added, of the activations, the weight array and the bias as the call
    finds them. -/
theorem array_eq (c : Dev nD) :
    (dat1 V c).arrAt 3 cfg1.N = lin (xArr V c) (wArr V c) (bArr V c) :=
  (dat1 V c).arrAt_eq_of_cover 3 _ (fun t _ => flushed_eq V c t) covered

end Cert.KernelIdeal.MatmulRegion

end
-- ==== Proof.KernelValue.lean ====
/-
  The kernel program's result as a function of its arguments.

  @main merges the activations' two leading axes, runs the first call (which leaves the dequantized weight matrix
  in an array of its own and touches nothing else), runs the second call on the merged activations, THAT array and
  the bias, and splits the rows of what the second call leaves.  The first call reads the three packed arrays as
  launched; the second reads the activations and the bias as they were before the first call, and the weight array as
  the first call left it.  Composed: the layer of the five arrays as launched.
-/
import proofs.«422695_j128849019569_3_alg».proof.Proof.RunNamed
import proofs.«422695_j128849019569_3_alg».proof.Proof.DequantRegion
import proofs.«422695_j128849019569_3_alg».proof.Proof.MatmulRegion
import Idealize.ShloMosaic.Lib.StableHlo.Run

set_option maxRecDepth 16384

noncomputable section

namespace Cert.KernelIdeal.KernelValue

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg)

/-! ## What the first call finds -/

theorem entry_qw (c : Dev nD) : DequantRegion.qwArr (V1 m ρ) c = m ((c : Thread nD τ).loc main_arg1) := by
  show StableHlo.after hostOps0 (W0 m ρ c) (Proc.devRef .tc main_arg1) = _
  after_results
theorem entry_qz (c : Dev nD) : DequantRegion.qzArr (V1 m ρ) c = m ((c : Thread nD τ).loc main_arg2) := by
  show StableHlo.after hostOps0 (W0 m ρ c) (Proc.devRef .tc main_arg2) = _
  after_results
theorem entry_sc (c : Dev nD) : DequantRegion.scArr (V1 m ρ) c = m ((c : Thread nD τ).loc main_arg3) := by
  show StableHlo.after hostOps0 (W0 m ρ c) (Proc.devRef .tc main_arg3) = _
  after_results

/-! ## What the second call finds -/

/-- The activations, merged, untouched by the first call. -/
theorem entry_x (c : Dev nD) :
    MatmulRegion.xArr (V2 m ρ) c = shapeCast S16384x4096 (m ((c : Thread nD τ).loc main_arg0)) shapeCasts_S8x2048x4096_S16384x4096 := by
  refine (W2_of_ne m ρ c main_v0 (by decide)).trans ?_
  show StableHlo.after hostOps0 (W0 m ρ c) (Proc.devRef .tc main_v0) = _
  after_results
  rfl
/-- The bias, untouched. -/
theorem entry_b (c : Dev nD) : MatmulRegion.bArr (V2 m ρ) c = m ((c : Thread nD τ).loc main_arg4) := by
  refine (W2_of_ne m ρ c main_arg4 (by decide)).trans ?_
  show StableHlo.after hostOps0 (W0 m ρ c) (Proc.devRef .tc main_arg4) = _
  after_results
/-- The weight array: the dequantized matrix of the packed arrays as launched. -/
theorem entry_w (c : Dev nD) :
    MatmulRegion.wArr (V2 m ρ) c
      = deq (m ((c : Thread nD τ).loc main_arg1)) (m ((c : Thread nD τ).loc main_arg2)) (m ((c : Thread nD τ).loc main_arg3)) := by
  refine (W2_arr m ρ c 3).trans ((DequantRegion.array_eq (V1 m ρ) c).trans ?_)
  rw [entry_qw, entry_qz, entry_sc]

/-! ## The result -/

/-- THE RESULT BUFFER at the end of @main holds the layer of the five arrays as launched. -/
theorem result_eq (c : Dev nD) :
    W4 m ρ c (Proc.devRef .tc main_v3)
      = layer (m ((c : Thread nD τ).loc main_arg0)) (m ((c : Thread nD τ).loc main_arg1)) (m ((c : Thread nD τ).loc main_arg2))
          (m ((c : Thread nD τ).loc main_arg3)) (m ((c : Thread nD τ).loc main_arg4)) := by
  have e4 : W4 m ρ c (Proc.devRef .tc main_v3)
      = shapeCast S8x2048x4096 (W3 m ρ c (Proc.devRef .tc main_v2)) shapeCasts_S16384x4096_S8x2048x4096 := by
    show StableHlo.after hostOps2 (W3 m ρ c) (Proc.devRef .tc main_v3) = _
    after_results
    rfl
  have e3 : W3 m ρ c (Proc.devRef .tc main_v2)
      = lin (MatmulRegion.xArr (V2 m ρ) c) (MatmulRegion.wArr (V2 m ρ) c) (MatmulRegion.bArr (V2 m ρ) c) :=
    (W3_arr m ρ c 3).trans (MatmulRegion.array_eq (V2 m ρ) c)
  rw [e4, e3, entry_x, entry_w, entry_b]
  rfl

/-- THE RUN of the kernel program: it terminates, nothing faulting, with the result at the layer of its arguments and the
    arguments as launched. -/
theorem run : θ_run (defs (F := Ideal)) (onTc (τ := τ) (main (F := Ideal))) ⟨m, fun _ => 0, ρ⟩ (fun r => ∀ c : Dev nD,
      r.2.mem ((c.tc : Thread nD τ).loc main_v3)
          = layer (m ((c : Thread nD τ).loc main_arg0)) (m ((c : Thread nD τ).loc main_arg1)) (m ((c : Thread nD τ).loc main_arg2))
              (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (RunNamed.run_named m ρ)

end Cert.KernelIdeal.KernelValue

end
-- ==== Proof.RefSide.lean ====
/-
  The reference program read as a function of its arguments.

  It builds the vector of shifts 0, 4, ..., 28 once (as 0 + 4 * s), unpacks both packed arrays with it, repeats
  each group's scale and zero point over the group's 128 rows, forms the whole 4096 x 4096 weight matrix, and
  multiplies the activations (the leading two axes merged into 16384 rows) by it in one product before adding the
  bias.  Read index by index these are the two functions `deq` and `lin`: row k of the weights comes from
  nibble k % 8 of packed row k / 8 because the eight nibble rows of a packed row are laid out consecutively, and
  column n of the zero points from nibble n % 8 of packed column n / 8 likewise.
-/
import proofs.«422695_j128849019569_3_alg».proof.Defs
import proofs.«422695_j128849019569_3_alg».proof.Proof.Gen.ReferenceIdeal.Run
import proofs.«422695_j128849019569_3_alg».proof.Proof.Gen.ReferenceIdeal.Read
import proofs.«422695_j128849019569_3_alg».proof.Proof.Blocks

noncomputable section

namespace Cert.ReferenceIdeal.RefSide

open Idealize.ShloMosaic Idealize.ShloMosaic.ValueIdx
open Cert.ReferenceIdeal Cert.ReferenceIdeal.Gen Cert.ReferenceIdeal.Read Cert.Spec

/-- Entry `s` of the shift vector is the shift of nibble `s`. -/
theorem shifts_apply (y : S8.Idx) : val_main_v5 (F := Ideal) y = shamt (y 0).val := by
  rw [val_main_v5_apply, val_main_v4_apply, val_main_c_0_apply, val_main_v3_apply, val_main_v2_apply, val_main_c_apply,
    val_main_v1_apply]
  exact shamt_of_add_mul (y 0).val (y 0).isLt

/-- THE WEIGHT MATRIX of the reference is the dequantized matrix. -/
theorem weights_eq (x1 : (⟨S512x4096, .i32⟩ : BufTy).Contents (Elt Ideal)) (x2 : (⟨S32x512, .i32⟩ : BufTy).Contents (Elt Ideal))
    (x3 : (⟨S32x4096, .f32⟩ : BufTy).Contents (Elt Ideal)) :
    val_main_v29 (F := Ideal) x1 x2 x3 = deq x1 x2 x3 := by
  funext i
  have h0 : (i 0).val < 4096 := idx2_lt0 i
  have h1 : (i 1).val < 4096 := idx2_lt1 i
  rw [val_main_v29_apply, val_main_v28_apply, val_main_v25_apply, val_main_v24_apply, val_main_v23_apply, val_main_v22_apply,
    val_main_v21_apply, val_main_v20_apply, val_main_c_2_apply, val_main_v19_apply, val_main_v17_apply, val_main_v15_apply,
    val_main_v18_apply, val_main_v16_apply, val_main_v27_apply, val_main_v26_apply, val_main_v14_apply, val_main_v13_apply,
    val_main_v12_apply, val_main_v11_apply, val_main_c_1_apply, val_main_v10_apply, val_main_v8_apply, val_main_v6_apply,
    val_main_v9_apply, val_main_v7_apply, shifts_apply, shifts_apply]
  unfold deq deqAt
  rw [idx2_eq (idx_main_v24 (idx_main_v25 i)) ⟨(i 0).val / 128, by omega⟩ ⟨(i 1).val, h1⟩
      (by show ((i 0).val * 4096 + (i 1).val) / 524288 = (i 0).val / 128; omega)
      (by show ((i 0).val * 4096 + (i 1).val) % 4096 = (i 1).val; omega),
    idx2_eq (idx_main_v15 (idx_main_v17 (idx_main_v22 i))) ⟨(i 0).val / 8, by omega⟩ ⟨(i 1).val, h1⟩
      (by show ((i 0).val * 4096 + (i 1).val) / 32768 = (i 0).val / 8; omega)
      (by show ((i 0).val * 4096 + (i 1).val) % 4096 = (i 1).val; omega),
    idx2_eq (idx_main_v6 (idx_main_v8 (idx_main_v13 (idx_main_v26 (idx_main_v27 i))))) ⟨(i 0).val / 128, by omega⟩ ⟨(i 1).val / 8, by omega⟩
      (by show (((i 0).val * 4096 + (i 1).val) / 524288 * 4096 + ((i 0).val * 4096 + (i 1).val) % 4096) / 4096 = (i 0).val / 128; omega)
      (by show (((i 0).val * 4096 + (i 1).val) / 524288 * 4096 + ((i 0).val * 4096 + (i 1).val) % 4096) / 8 % 512 = (i 1).val / 8; omega),
    show ((idx_main_v16 (idx_main_v18 (idx_main_v22 i))) 0).val = (i 0).val % 8 by
      show ((i 0).val * 4096 + (i 1).val) / 4096 % 8 = (i 0).val % 8; omega,
    show ((idx_main_v7 (idx_main_v9 (idx_main_v13 (idx_main_v26 (idx_main_v27 i))))) 0).val = (i 1).val % 8 by
      show (((i 0).val * 4096 + (i 1).val) / 524288 * 4096 + ((i 0).val * 4096 + (i 1).val) % 4096) % 8 = (i 1).val % 8; omega,
    nib_of_host, nib_of_host]
  rfl

/-- THE PRODUCT of the reference, bias added, is `lin` of the merged activations, its weight matrix and the bias. -/
theorem product_eq (x0 : (⟨S8x2048x4096, .f32⟩ : BufTy).Contents (Elt Ideal)) (x1 : (⟨S512x4096, .i32⟩ : BufTy).Contents (Elt Ideal))
    (x2 : (⟨S32x512, .i32⟩ : BufTy).Contents (Elt Ideal)) (x3 : (⟨S32x4096, .f32⟩ : BufTy).Contents (Elt Ideal))
    (x4 : (⟨S4096, .f32⟩ : BufTy).Contents (Elt Ideal)) :
    val_main_v33 (F := Ideal) x0 x1 x2 x3 x4 = lin (val_main_v0 (F := Ideal) x0) (val_main_v29 (F := Ideal) x1 x2 x3) x4 := by
  funext i
  rw [val_main_v33_apply, val_main_v30_apply, val_main_v32_apply, val_main_v31_apply]
  unfold lin linAt
  rw [idx1_eq (idx_main_v31 (idx_main_v32 i)) ⟨(i 1).val, idx2_lt1 i⟩ rfl]
  refine congrArg (· + _) (Finset.sum_congr rfl fun k _ => ?_)
  rw [idx2_eq (lidx_main_v30 i k) ⟨(i 0).val, idx2_lt0 i⟩ k rfl rfl, idx2_eq (ridx_main_v30 i k) k ⟨(i 1).val, idx2_lt1 i⟩ rfl rfl]

/-- THE RESULT of the reference: the linear layer over the dequantized weights, its rows split back into the two
    leading axes of the activations. -/
theorem result_eq (x0 : (⟨S8x2048x4096, .f32⟩ : BufTy).Contents (Elt Ideal)) (x1 : (⟨S512x4096, .i32⟩ : BufTy).Contents (Elt Ideal))
    (x2 : (⟨S32x512, .i32⟩ : BufTy).Contents (Elt Ideal)) (x3 : (⟨S32x4096, .f32⟩ : BufTy).Contents (Elt Ideal))
    (x4 : (⟨S4096, .f32⟩ : BufTy).Contents (Elt Ideal)) :
    val_main_v34 (F := Ideal) x0 x1 x2 x3 x4 = layer x0 x1 x2 x3 x4 := by
  unfold val_main_v34
  rw [product_eq, weights_eq]
  rfl

end Cert.ReferenceIdeal.RefSide

end
-- ==== Proof.lean ====
/-
  A linear layer with 4-bit packed weights, computed two ways.

  The kernel program dequantizes the weight matrix once, block by block, into an array (first call) and then
  multiplies the activations by that array and adds the bias, block by block with the whole contracted axis in every
  block (second call).  The reference builds the same weight matrix with whole-array operations and does one
  product.  Over the extended reals both are the function `Cert.Spec.layer` of the five argument arrays:

      out[r, n] = (sum over k < 4096 of x[r, k] * (scale[k / 128, n] * (nib(qw[k / 8, n], k % 8) - nib(qz[k / 128, n / 8], n % 8)))) + bias[n].

  The two sides apply the same operations in the same order to each element -- the sum is one sum over the same 4096
  terms on both sides, the narrowing of the kernel's intermediate values to a 16-bit format is the identity, and the
  two arithmetic shifts agree on 32-bit words -- so no law of arithmetic is used and the precondition is not opened.

  Modules: Spec (the functions), Layouts and DequantBody / MatmulBody (what each call's body stores, at an entry),
  Blocks (an entry of a block is an entry of the whole), DequantRegion / MatmulRegion (each call's array after the
  call), RunNamed (the program's run with its result buffer read out), KernelValue (the kernel's result), RefSide
  (the reference's result).
-/
import proofs.«422695_j128849019569_3_alg».proof.Defs
import proofs.«422695_j128849019569_3_alg».proof.Proof.Gen.Kernel
import proofs.«422695_j128849019569_3_alg».proof.Proof.Gen.Kernel.Frame
import proofs.«422695_j128849019569_3_alg».proof.Proof.Gen.KernelIdeal
import proofs.«422695_j128849019569_3_alg».proof.Proof.Gen.KernelIdeal.Frame
import proofs.«422695_j128849019569_3_alg».proof.Proof.Gen.ReferenceIdeal
import proofs.«422695_j128849019569_3_alg».proof.Proof.Gen.ReferenceIdeal.Run
import proofs.«422695_j128849019569_3_alg».proof.Proof.Gen.ReferenceIdeal.Read
import proofs.«422695_j128849019569_3_alg».proof.Proof.Gen.Pre_finite_inputs
import proofs.«422695_j128849019569_3_alg».proof.Proof.KernelValue
import proofs.«422695_j128849019569_3_alg».proof.Proof.RefSide
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arrays both programs end with the layer of those arrays in their result. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v34_eq _ _ _ _ _).trans (Cert.ReferenceIdeal.RefSide.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
